-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S128x577 : Shape := ⟨2, ![128, 577]⟩
abbrev S128 : Shape := ⟨1, ![128]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S128x577 : S_.BroadcastsInDim S128x577 (![] : Fin 0 → Fin S128x577.rank)
  reducesTo_S128x577_S_d0_1 : S128x577.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg0 : IVec S64x4096 32) (main_v13 : IVec S_ 1) (main_v15 : IVec S64x4096 1) (main_c_5 : IVec S_ 1) : IVec S_ 1 :=
  let main_v16 : IVec S_ 1 := (fun x v => Host.reduce IntOp.andi x v reducesTo_S64x4096_S_d0_1 h_S_) main_v15 main_c_5
  let main_v17 : IVec S_ 1 := andi main_v13 main_v16
  let main_c_6 : IVec S_ 32 := constantI S_ 32 576#32
  let main_v18 : IVec S64x4096 32 := broadcastInDim S64x4096 ![] bcast_S_S64x4096 main_c_6
  let main_v19 : IVec S64x4096 1 := cmpi .slt main_arg0 main_v18
  let main_c_7 : IVec S_ 1 := constantI S_ 1 1#1
  let main_v20 : IVec S_ 1 := (fun x v => Host.reduce IntOp.andi x v reducesTo_S64x4096_S_d0_1 h_S_) main_v19 main_c_7
  let main_v21 : IVec S_ 1 := andi main_v17 main_v20
  main_v21

def fn {F : FTy → Type} [FloatOps F] (main_arg0 : IVec S64x4096 32) (main_arg1 : FVec F S64x4096 .f32) (main_arg2 : FVec F S128x577 .f32) (main_arg3 : FVec F S128 .f32) : IVec S_ 1 :=
  let main_v0 : FVec F S64x4096 .f32 := Host.absf main_arg1
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S128x577 .f32 := Host.absf main_arg2
  let main_cst_0 : FVec F S_ .f32 := constant S_ .f32 0x7F800000#32
  let main_v5 : FVec F S128x577 .f32 := broadcastInDim S128x577 ![] bcast_S_S128x577 main_cst_0
  let main_v6 : IVec S128x577 1 := cmpf .olt main_v4 main_v5
  let main_c_1 : IVec S_ 1 := constantI S_ 1 1#1
  let main_v7 : IVec S_ 1 := (fun x v => Host.reduce IntOp.andi x v reducesTo_S128x577_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S64x4096 32 := broadcastInDim S64x4096 ![] bcast_S_S64x4096 main_c_4
  let main_v15 : IVec S64x4096 1 := cmpi .sge main_arg0 main_v14
  let main_c_5 : IVec S_ 1 := constantI S_ 1 1#1
  fn_part1 (F := F) main_arg0 main_v13 main_v15 main_c_5
-- ==== Kernel.lean ====
abbrev S64x4096 : Shape := ⟨2, ![64, 4096]⟩
abbrev S128x577 : Shape := ⟨2, ![128, 577]⟩
abbrev S128 : Shape := ⟨1, ![128]⟩
abbrev S262144x1 : Shape := ⟨2, ![262144, 1]⟩
abbrev S128x576 : Shape := ⟨2, ![128, 576]⟩
abbrev S576x128 : Shape := ⟨2, ![576, 128]⟩
abbrev S128x1 : Shape := ⟨2, ![128, 1]⟩
abbrev S1x128 : Shape := ⟨2, ![1, 128]⟩
abbrev S262144x128 : Shape := ⟨2, ![262144, 128]⟩
abbrev S2048x1 : Shape := ⟨2, ![2048, 1]⟩
abbrev S2048x128 : Shape := ⟨2, ![2048, 128]⟩
abbrev S2048x576 : Shape := ⟨2, ![2048, 576]⟩
abbrev S64x4096x128 : Shape := ⟨3, ![64, 4096, 128]⟩

abbrev nBuf : Space → Nat
  | .hbm => 14
  | .vmem => 9
  | .smem => 0
  | _ => 0

abbrev bufTy : (tb : Table) → Fin (tcTables nBuf tb) → BufTy
  | .hbm, ⟨0, _⟩ => ⟨S64x4096, .i32⟩
  | .hbm, ⟨1, _⟩ => ⟨S64x4096, .f32⟩
  | .hbm, ⟨2, _⟩ => ⟨S128x577, .f32⟩
  | .hbm, ⟨3, _⟩ => ⟨S128, .f32⟩
  | .hbm, ⟨4, _⟩ => ⟨S262144x1, .i32⟩
  | .hbm, ⟨5, _⟩ => ⟨S262144x1, .f32⟩
  | .hbm, ⟨6, _⟩ => ⟨S128x576, .f32⟩
  | .hbm, ⟨7, _⟩ => ⟨S576x128, .f32⟩
  | .hbm, ⟨8, _⟩ => ⟨S128x1, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S262144x128, .f32⟩
  | .hbm, ⟨13, _⟩ => ⟨S64x4096x128, .f32⟩
  | .local _ .vmem, ⟨0, _⟩ => ⟨S2048x1, .i32⟩
  | .local _ .vmem, ⟨1, _⟩ => ⟨S2048x1, .i32⟩
  | .local _ .vmem, ⟨2, _⟩ => ⟨S2048x1, .f32⟩
  | .local _ .vmem, ⟨3, _⟩ => ⟨S2048x1, .f32⟩
  | .local _ .vmem, ⟨4, _⟩ => ⟨S576x128, .f32⟩
  | .local _ .vmem, ⟨5, _⟩ => ⟨S1x128, .f32⟩
  | .local _ .vmem, ⟨6, _⟩ => ⟨S1x128, .f32⟩
  | .local _ .vmem, ⟨7, _⟩ => ⟨S2048x128, .f32⟩
  | .local _ .vmem, ⟨8, _⟩ => ⟨S2048x128, .f32⟩
  | _, _ => ⟨S64x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S576x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x4096_S262144x1 : S64x4096.ShapeCasts S262144x1
  slices_S128x577_S128x576_0_0 : S128x577.Slices ![0, 0] S128x576
  transposes_S128x576_S576x128_1_0 : S128x576.Transposes [1, 0] S576x128
  slices_S128x577_S128x1_0_576 : S128x577.Slices ![0, 576] S128x1
  shapeCasts_S128x1_S128 : S128x1.ShapeCasts S128
  shapeCasts_S128_S1x128 : S128.ShapeCasts S1x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S576x128_S576x128_0_0 : ∀ a, (![0, 0] : Fin 2 → Nat) a + S576x128.size a ≤ S576x128.size a
  h_S576x128 : 0 < S576x128.numel
  shapeCasts_S576x128_S576x128 : S576x128.ShapeCasts S576x128
  iota_S2048x576_d1_w32 : S2048x576.Iotas .tc 32 [1]
  broadcasts_S2048x1_S2048x576 : S2048x1.Broadcasts S2048x576
  natLt_1_32 : 1 < 32
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2048x1_S2048x128 : S2048x1.Broadcasts S2048x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S262144x128_S64x4096x128 : S262144x128.ShapeCasts S64x4096x128
  dot_S2048x576_S576x128_S2048x128_1_0_0_1_n_n_wf : DotDims.WF S2048x576 S576x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S262144x1.size a
  hwx0_0 : ∀ i : grid0.Coords, EltTy.bits .i32 = 32 ∨ (Rect.block (s := S262144x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .f32 = 32 ∨ (Rect.block (s := S262144x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S576x128.size a ≤ S576x128.size a
  hwx0_2 : ∀ i : grid0.Coords, EltTy.bits .f32 = 32 ∨ (Rect.block (s := S576x128) S576x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S262144x128.size a
  hwx0_5 : ∀ i : grid0.Coords, EltTy.bits .f32 = 32 ∨ (Rect.block (s := S262144x128) S2048x128.size (cc0_transform_5 i) (hinb0_5 i)).WholeWords (EltTy.packing .f32)

variable [Facts₀]

def dot_S2048x576_S576x128_S2048x128_1_0_0_1_n_n : DotDims S2048x576 S576x128 S2048x128 where
  lhsContracting := [1]
  rhsContracting := [0]
  lhsNonContracting := [0]
  rhsNonContracting := [1]
  lhsBatch := []
  rhsBatch := []
  wf := dot_S2048x576_S576x128_S2048x128_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S576x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096 : Shape := ⟨2, ![64, 4096]⟩
abbrev S128x577 : Shape := ⟨2, ![128, 577]⟩
abbrev S128 : Shape := ⟨1, ![128]⟩
abbrev S128x576 : Shape := ⟨2, ![128, 576]⟩
abbrev S576x128 : Shape := ⟨2, ![576, 128]⟩
abbrev S128x1 : Shape := ⟨2, ![128, 1]⟩
abbrev S_ : Shape := ⟨0, ![]⟩
abbrev S64x4096x1 : Shape := ⟨3, ![64, 4096, 1]⟩
abbrev S64x4096x128 : Shape := ⟨3, ![64, 4096, 128]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S64x4096, .i32⟩
  | .hbm, ⟨1, _⟩ => ⟨S64x4096, .f32⟩
  | .hbm, ⟨2, _⟩ => ⟨S128x577, .f32⟩
  | .hbm, ⟨3, _⟩ => ⟨S128, .f32⟩
  | .hbm, ⟨4, _⟩ => ⟨S128x576, .f32⟩
  | .hbm, ⟨5, _⟩ => ⟨S576x128, .f32⟩
  | .hbm, ⟨6, _⟩ => ⟨S128x1, .f32⟩
  | .hbm, ⟨7, _⟩ => ⟨S128, .f32⟩
  | .hbm, ⟨8, _⟩ => ⟨S_, .i32⟩
  | .hbm, ⟨9, _⟩ => ⟨S64x4096, .i32⟩
  | .hbm, ⟨10, _⟩ => ⟨S64x4096, .i1⟩
  | .hbm, ⟨11, _⟩ => ⟨S_, .i32⟩
  | .hbm, ⟨12, _⟩ => ⟨S64x4096, .i32⟩
  | .hbm, ⟨13, _⟩ => ⟨S64x4096, .i32⟩
  | .hbm, ⟨14, _⟩ => ⟨S64x4096, .i32⟩
  | .hbm, ⟨15, _⟩ => ⟨S64x4096x1, .i32⟩
  | .hbm, ⟨16, _⟩ => ⟨S64x4096x128, .f32⟩
  | .hbm, ⟨17, _⟩ => ⟨S64x4096x1, .f32⟩
  | .hbm, ⟨18, _⟩ => ⟨S1x1x128, .f32⟩
  | .hbm, ⟨19, _⟩ => ⟨S64x4096x128, .f32⟩
  | .hbm, ⟨20, _⟩ => ⟨S64x4096x128, .f32⟩
  | .hbm, ⟨21, _⟩ => ⟨S64x4096x128, .f32⟩
  | .hbm, ⟨22, _⟩ => ⟨S64x4096x128, .f32⟩
  | .hbm, ⟨23, _⟩ => ⟨S1x1x128, .f32⟩
  | .hbm, ⟨24, _⟩ => ⟨S64x4096x128, .f32⟩
  | .hbm, ⟨25, _⟩ => ⟨S64x4096x128, .f32⟩
  | _, _ => ⟨S64x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  slices_S128x577_S128x576_0_0 : S128x577.Slices ![0, 0] S128x576
  transposes_S128x576_S576x128_1_0 : S128x576.Transposes [1, 0] S576x128
  slices_S128x577_S128x1_0_576 : S128x577.Slices ![0, 576] S128x1
  shapeCasts_S128x1_S128 : S128x1.ShapeCasts S128
  bcast_S_S64x4096 : S_.BroadcastsInDim S64x4096 (![] : Fin 0 → Fin S64x4096.rank)
  bcast_S64x4096_S64x4096x1_0_1 : S64x4096.BroadcastsInDim S64x4096x1 (![0, 1] : Fin 2 → Fin S64x4096x1.rank)
  bcast_S128_S1x1x128_2 : S128.BroadcastsInDim S1x1x128 (![2] : Fin 1 → Fin S1x1x128.rank)
  bcast_S64x4096x1_S64x4096x128_0_1_2 : S64x4096x1.BroadcastsInDim S64x4096x128 (![0, 1, 2] : Fin 3 → Fin S64x4096x128.rank)
  bcast_S1x1x128_S64x4096x128_0_1_2 : S1x1x128.BroadcastsInDim S64x4096x128 (![0, 1, 2] : Fin 3 → Fin S64x4096x128.rank)
  gather_S576x128_S64x4096x1_S64x4096x128_2_0_n_n_0_2_1128_wf : GatherDims.WF S576x128 S64x4096x1 S64x4096x128 [2] [0] [] [0] [] 2 ![1, 128]

variable [Facts₀]

def gather_S576x128_S64x4096x1_S64x4096x128_2_0_n_n_0_2_1128 : GatherDims S576x128 S64x4096x1 S64x4096x128 where
  offsetDims := [2]
  collapsedSliceDims := [0]
  operandBatchingDims := []
  startIndicesBatchingDims := []
  startIndexMap := [0]
  indexVectorDim := 2
  sliceSizes := ![1, 128]
  wf := gather_S576x128_S64x4096x1_S64x4096x128_2_0_n_n_0_2_1128_wf

class Facts : Prop extends Facts₀ where

variable [Facts]
-- ==== Proof.Spec.lean ====
/-
  The function both programs compute, and the one law that joins them.

  out[b, s, d] = W[d, pitch[b, s]] + gain[b, s] · W[d, 576] + bias[d]     (pitch[b, s] in [0, 576))

  The reference reads row pitch[b, s] of the table Wᵀ[:576] directly; the kernel multiplies the one-hot row
  (δ(pitch[b, s], k))ₖ into the table. On the extended reals 0 · x = 0 and 1 · x = x for EVERY x, and a sum with one
  non-zero term is that term, so Σₖ δ(p, k) · T k = T p with no finiteness needed.
-/
import Idealize.ShloMosaic.PureOps.Ideal
import Idealize.ShloMosaic.Lib.ValueIdx
import Idealize.ShloMosaic.Lib.StableHlo.Predicate

noncomputable section

open scoped BigOperators

namespace Cert.Embed

open Idealize.ShloMosaic Idealize.ShloMosaic.ValueIdx

/-- The table row a pitch word selects: its value, kept below the 576 classes. -/
def row (p : BitVec 32) : Fin 576 := ⟨min p.toNat 575, by omega⟩

/-- For a pitch in range the row is the pitch. -/
theorem row_val {p : BitVec 32} (h : p.toNat < 576) : (row p).val = p.toNat := by
  show min p.toNat 575 = p.toNat
  omega

/-- Column `k` of the weight matrix `W : [128, 577]` at output feature `d`, for `k` one of the 576 pitch classes. -/
abbrev wIdx (d : Fin 128) (k : Fin 576) : (⟨2, ![128, 577]⟩ : Shape).Idx := ix2 d ⟨k.val, by omega⟩
/-- The gain column of `W` (column 576) at output feature `d`. -/
abbrev wGain (d : Fin 128) : (⟨2, ![128, 577]⟩ : Shape).Idx := ix2 d ⟨576, by omega⟩

/-- THE RESULT: the pitch class's column of `W`, plus the gain times the gain column, plus the bias. -/
def embed (pitch : (⟨2, ![64, 4096]⟩ : Shape).Idx → BitVec 32) (gain : (⟨2, ![64, 4096]⟩ : Shape).Idx → EReal)
    (W : (⟨2, ![128, 577]⟩ : Shape).Idx → EReal) (bias : (⟨1, ![128]⟩ : Shape).Idx → EReal) :
    (⟨3, ![64, 4096, 128]⟩ : Shape).Idx → EReal :=
  fun i => W (wIdx (i 2) (row (pitch (ix2 (i 0) (i 1))))) + gain (ix2 (i 0) (i 1)) * W (wGain (i 2)) + bias (ix1 (i 2))

/-- One entry of the one-hot row, as the kernel builds it (an integer equality, widened to a word, converted to a
    float): `1` where the pitch is the class, `0` elsewhere. -/
theorem onehot_entry (p q : BitVec 32) :
    (FloatOps.sitofp (F := Ideal) .f32 ((IntOp.cmpi .eq p q).setWidth 32) : EReal) = if p = q then 1 else 0 := by
  by_cases h : p = q
  · rw [if_pos h, (StableHlo.Predicate.cmpi_eq_iff).mpr h]
    show (((1#1 : BitVec 1).setWidth 32).toInt : ℝ) = (1 : EReal)
    norm_num
  · rw [if_neg h, eq_zero_of_ne_one (fun e => h ((StableHlo.Predicate.cmpi_eq_iff).mp e))]
    show (((0#1 : BitVec 1).setWidth 32).toInt : ℝ) = (0 : EReal)
    norm_num

/-- A pitch below 576 is the class word `k` exactly when its value is `k`. -/
theorem eq_ofNat_iff {p : BitVec 32} (k : Fin 576) : p = BitVec.ofNat 32 k.val ↔ p.toNat = k.val := by
  have hk : k.val < 576 := k.isLt
  constructor
  · intro e; rw [e, BitVec.toNat_ofNat]; omega
  · intro e; apply BitVec.eq_of_toNat_eq; rw [BitVec.toNat_ofNat, e]; omega

/-- THE LAW: the one-hot row of an in-range pitch, contracted with a table column, is the table at the pitch. -/
theorem onehot_sum (p : BitVec 32) (hp : p.toNat < 576) (T : Fin 576 → EReal) :
    ∑ k : Fin 576, (if p = BitVec.ofNat 32 k.val then (1 : EReal) else 0) * T k = T (row p) := by
  rw [Finset.sum_eq_single (row p)]
  · rw [if_pos ((eq_ofNat_iff (row p)).mpr (row_val hp).symm), one_mul]
  · intro k _ hk
    rw [if_neg (fun e => hk (Fin.ext (((eq_ofNat_iff k).mp e).symm.trans (row_val hp).symm))), zero_mul]
  · intro h; exact absurd (Finset.mem_univ _) h

end Cert.Embed

end
-- ==== Proof.PitchRange.lean ====
/-
  What the precondition says of the pitch array: every entry is one of the 576 pitch classes.

  The precondition is a conjunction of five `all`s; the last two are `all (pitch ≥ 0)` and `all (pitch < 576)`, signed
  compares of 32-bit words. A word that is non-negative as a signed integer is its unsigned value, so the two together say
  the word's value is below 576.
-/
import proofs.«426710_j23218593202910_3_alg».proof.Pre_finite_inputs
import proofs.«426710_j23218593202910_3_alg».proof.Proof.Gen.Pre_finite_inputs
import Idealize.ShloMosaic.Lib.ReduceAll
import Idealize.ShloMosaic.Lib.Affine
import Idealize.ShloMosaic.Lib.ValueIdx

noncomputable section

namespace Cert.PitchRange

open Idealize.ShloMosaic Idealize.ShloMosaic.ValueIdx Cert.Pre_finite_inputs Cert.Pre_finite_inputs.Gen

/-- A 32-bit word that is at least 0 and below 576 as a signed integer has a value below 576. -/
theorem toNat_lt_of_signed {x : BitVec 32} (h0 : (0#32 : BitVec 32).toInt ≤ x.toInt) (h1 : x.toInt < (576#32 : BitVec 32).toInt) :
    x.toNat < 576 := by
  have e0 : (0#32 : BitVec 32).toInt = 0 := by decide
  have e1 : (576#32 : BitVec 32).toInt = 576 := by decide
  rw [e0] at h0; rw [e1] at h1
  have hx := x.isLt
  rw [BitVec.toInt_eq_toNat_cond] at h0 h1
  split at h0 <;> omega

instance : Subsingleton S_.Idx := ⟨fun a b => funext fun d => d.elim0⟩

/-- Under the precondition every pitch is a pitch class. -/
theorem pitch_lt {F : FTy → Type} [FloatOps F] (a0 : IVec S64x4096 32) (a1 : FVec F S64x4096 .f32) (a2 : FVec F S128x577 .f32)
    (a3 : FVec F S128 .f32) (h : Cert.Pre_finite_inputs.fn (F := F) a0 a1 a2 a3 = fun _ => 1#1) (i : S64x4096.Idx) :
    (a0 i).toNat < 576 := by
  have h0 := congrFun h ix0
  dsimp only [Cert.Pre_finite_inputs.fn, Cert.Pre_finite_inputs.fn_part1] at h0
  obtain ⟨h1, hlt⟩ := IntOp.andi_eq_one.1 h0
  obtain ⟨-, hge⟩ := IntOp.andi_eq_one.1 h1
  have hge' := Host.reduce_andi_all _ _ _ _ _ hge i
  have hlt' := Host.reduce_andi_all _ _ _ _ _ hlt i
  exact toNat_lt_of_signed (IntOp.cmpi_sge.1 hge') (IntOp.cmpi_slt.1 hlt')

end Cert.PitchRange

end
-- ==== Proof.Reference.lean ====
/-
  The reference's result, read index by index, is `Embed.embed` of its arguments when every pitch is a pitch class.

  The reference takes Wᵀ[:576] (a slice, then a transpose), wraps a negative pitch by +576 (never taken for a pitch in
  range), gathers row pitch[b, s] of the table (the gather clamps its start index into [0, 575]: for a pitch in range the
  clamp is the identity), and adds gain[b, s] · W[:, 576] and the bias, each broadcast along the other axes.
-/
import proofs.«426710_j23218593202910_3_alg».proof.Proof.Gen.ReferenceIdeal.Run
import proofs.«426710_j23218593202910_3_alg».proof.Proof.Gen.ReferenceIdeal.Read
import proofs.«426710_j23218593202910_3_alg».proof.Proof.Spec
import Idealize.ShloMosaic.Lib.ValueIdx
import Idealize.ShloMosaic.Lib.Pipeline.Value
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx
open Cert.Embed

/-- The gather's dimension numbers: rows of a [576, 128] table at a [64, 4096, 1] array of start indices. -/
abbrev rowsOf := gather_S576x128_S64x4096x1_S64x4096x128_2_0_n_n_0_2_1128

/-- THE GATHER READ AT (b, s, d): the table at row `idx[b, s, 0]` — read signed and clamped into [0, 575] — and column `d`. -/
theorem gather_rows {α : Type} (x : S576x128.Idx → α) (idx : IVec S64x4096x1 32) (b : Fin 64) (s : Fin 4096) (d : Fin 128) :
    Host.gather rowsOf x idx (ix3 b s d)
      = x (ix2 ⟨min (idx (ix3 b s (0 : Fin 1))).toInt.toNat 575, by omega⟩ d) := by
  unfold Host.gather
  congr 1
  funext a
  refine Fin.ext ?_
  match a with
  | ⟨0, _⟩ =>
    show rowsOf.start (ix3 b s d) idx 0 + rowsOf.batchCoord (ix3 b s d) 0 + rowsOf.offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowsOf.startIndexMap from List.mem_singleton.mpr rfl)]
    have hsi : rowsOf.siIdx (ix3 b s d) ⟨List.idxOf (0 : Fin 2) rowsOf.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show rowsOf.start (ix3 b s d) idx 1 + rowsOf.batchCoord (ix3 b s d) 1 + rowsOf.offCoord (ix3 b s d) 1 = _
    rw [GatherDims.batchCoord_eq_zero _ _ _ List.not_mem_nil]
    unfold GatherDims.start
    rw [dif_neg (show ¬ (1 : Fin 2) ∈ rowsOf.startIndexMap from by decide)]
    simp only [Nat.add_zero, Nat.zero_add]
    rfl

/-- A pitch class read as a signed integer, then as a natural number, is its value. -/
theorem toInt_toNat {p : BitVec 32} (hp : p.toNat < 576) : p.toInt.toNat = p.toNat := by
  rw [StableHlo.Predicate.toInt_eq_toNat_of_lt (by omega), Int.toNat_natCast]

/-- jnp's wrap of a negative index (`pitch < 0 ? pitch + 576 : pitch`) leaves a pitch class alone. -/
theorem wrap_eq (x0 : (⟨S64x4096, .i32⟩ : BufTy).Contents (Elt Ideal)) (hr : ∀ i, (x0 i).toNat < 576) (i : S64x4096.Idx) :
    val_main_v8 (F := Ideal) x0 i = x0 i := by
  rw [val_main_v8_apply, val_main_v5_apply, val_main_v4_apply, val_main_c_apply]
  have hz : IntOp.cmpi .slt (x0 i) 0#32 = 0#1 := eq_zero_of_ne_one fun e => by
    have hi := hr i
    have := (StableHlo.Predicate.slt_iff_toNat (a := x0 i) (b := 0#32) (by omega) (by decide)).1 e
    simp at this
  rw [hz, select_zero]

/-- Wᵀ[:576] at (k, d) is W at (d, k). -/
theorem table_idx (k : Fin 576) (d : Fin 128) : idx_main_v0 (idx_main_v1 (ix2 k d)) = wIdx d k := by
  funext a; refine Fin.ext ?_
  match a with
  | ⟨0, _⟩ => rfl
  | ⟨1, _⟩ => rfl

/-- THE REFERENCE IS `embed`: index by index, for pitches in range. -/
theorem result_eq (x0 : (⟨S64x4096, .i32⟩ : BufTy).Contents (Elt Ideal)) (x1 : (⟨S64x4096, .f32⟩ : BufTy).Contents (Elt Ideal))
    (x2 : (⟨S128x577, .f32⟩ : BufTy).Contents (Elt Ideal)) (x3 : (⟨S128, .f32⟩ : BufTy).Contents (Elt Ideal))
    (hr : ∀ i, (x0 i).toNat < 576) :
    val_main_v19 (F := Ideal) x0 x1 x2 x3 = embed x0 x1 x2 x3 := by
  funext i
  obtain ⟨b, s, d, rfl⟩ : ∃ (b : Fin 64) (s : Fin 4096) (d : Fin 128), i = ix3 b s d := ⟨i 0, i 1, i 2, eq_ix3 i⟩
  rw [val_main_v19_apply, val_main_v16_apply, val_main_v15_apply, val_main_v18_apply, val_main_v17_apply,
    val_main_v13_apply, val_main_v11_apply, val_main_v14_apply, val_main_v12_apply, val_main_v3_apply, val_main_v2_apply]
  unfold val_main_v10
  rw [gather_rows, val_main_v1_apply, val_main_v0_apply, table_idx]
  have e9 : idx_main_v9 (ix3 b s (0 : Fin 1)) = ix2 b s := funext fun a => Fin.ext (by
    match a with
    | ⟨0, _⟩ => rfl
    | ⟨1, _⟩ => rfl)
  have e11 : idx_main_v11 (idx_main_v13 (ix3 b s d)) = ix2 b s := funext fun a => Fin.ext (by
    match a with
    | ⟨0, _⟩ => rfl
    | ⟨1, _⟩ => rfl)
  have e2 : idx_main_v2 (idx_main_v3 (idx_main_v12 (idx_main_v14 (ix3 b s d)))) = wGain d := funext fun a => Fin.ext (by
    match a with
    | ⟨0, _⟩ => show d.val / 1 = d.val; omega
    | ⟨1, _⟩ => rfl)
  have e17 : idx_main_v17 (idx_main_v18 (ix3 b s d)) = ix1 d := funext fun a => Fin.ext (by
    match a with
    | ⟨0, _⟩ => rfl)
  have hrow : (⟨min (val_main_v9 (F := Ideal) x0 (ix3 b s (0 : Fin 1))).toInt.toNat 575, by omega⟩ : Fin 576) = row (x0 (ix2 b s)) := by
    refine Fin.ext ?_
    show min (val_main_v9 (F := Ideal) x0 (ix3 b s (0 : Fin 1))).toInt.toNat 575 = min (x0 (ix2 b s)).toNat 575
    rw [val_main_v9_apply, wrap_eq x0 hr, e9, toInt_toNat (hr _)]
  rw [hrow, e11, e2, e17]
  rfl

end Cert.ReferenceIdeal.RefValue

end
-- ==== Proof.Payload.lean ====
/-
  The kernel body's stored value, read at one element (r, d) of its [2048, 128] block.

  The body builds the one-hot rows  oh[r, k] = (pitch[r] = k)  over the 576 classes (an integer compare against an iota,
  widened and converted to a float: exactly 0 or 1), contracts them with the table block T : [576, 128] on the matrix
  unit into a zero accumulator, and adds  gain[r] · wgain[d] + bias[d].  On the extended reals the two changes of float
  format are the identity and the contraction is the plain sum  Σₖ oh[r, k] · T[k, d],  which for a pitch in range is
  T[pitch[r], d]  (`Embed.onehot_sum`).
-/
import proofs.«426710_j23218593202910_3_alg».proof.Proof.Gen.KernelIdeal.Skeleton
import proofs.«426710_j23218593202910_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.Embed

/-! ## The contraction's operand indices, axis by axis -/

theorem lhs_onehot_0 (i : S2048x128.Idx) (q : dot_S2048x576_S576x128_S2048x128_1_0_0_1_n_n.contr.Idx) :
    (dot_S2048x576_S576x128_S2048x128_1_0_0_1_n_n.lhsIdx i q 0).val = (i 0).val := by
  unfold DotDims.lhsIdx
  rw [dif_neg (show ¬(0 : Fin S2048x576.rank) ∈ dot_S2048x576_S576x128_S2048x128_1_0_0_1_n_n.lhsBatch by decide),
    dif_pos (show (0 : Fin S2048x576.rank) ∈ dot_S2048x576_S576x128_S2048x128_1_0_0_1_n_n.lhsNonContracting by decide)]
  rfl
theorem lhs_onehot_1 (i : S2048x128.Idx) (q : dot_S2048x576_S576x128_S2048x128_1_0_0_1_n_n.contr.Idx) :
    (dot_S2048x576_S576x128_S2048x128_1_0_0_1_n_n.lhsIdx i q 1).val = (q ⟨0, by decide⟩).val :=
  dot_S2048x576_S576x128_S2048x128_1_0_0_1_n_n.lhsIdx_val_of_single rfl i q
theorem rhs_table_0 (i : S2048x128.Idx) (q : dot_S2048x576_S576x128_S2048x128_1_0_0_1_n_n.contr.Idx) :
    (dot_S2048x576_S576x128_S2048x128_1_0_0_1_n_n.rhsIdx i q 0).val = (q ⟨0, by decide⟩).val :=
  dot_S2048x576_S576x128_S2048x128_1_0_0_1_n_n.rhsIdx_val_of_single rfl i q
theorem rhs_table_1 (i : S2048x128.Idx) (q : dot_S2048x576_S576x128_S2048x128_1_0_0_1_n_n.contr.Idx) :
    (dot_S2048x576_S576x128_S2048x128_1_0_0_1_n_n.rhsIdx i q 1).val = (i 1).val := by
  unfold DotDims.rhsIdx
  rw [dif_neg (show ¬(1 : Fin S576x128.rank) ∈ dot_S2048x576_S576x128_S2048x128_1_0_0_1_n_n.rhsBatch by decide),
    dif_pos (show (1 : Fin S576x128.rank) ∈ dot_S2048x576_S576x128_S2048x128_1_0_0_1_n_n.rhsNonContracting by decide)]
  rfl

/-- THE CONTRACTION at (r, d): into the zero accumulator, the sum over the 576 classes of row `r` of the left operand
    times column `d` of the right. -/
theorem contraction_at {φ₁ φ₂ : FTy} (l : FVec Ideal S2048x576 φ₁) (t : FVec Ideal S576x128 φ₂) (r : Fin 2048) (d : Fin 128) :
    matmul dot_S2048x576_S576x128_S2048x128_1_0_0_1_n_n none l t (constant S2048x128 .f32 0x00000000#32) (ix2 r d)
      = ∑ k : Fin 576, l (ix2 r k) * t (ix2 k d) := by
  simp only [matmul]
  rw [Ideal.matmul_constant_zero_apply,
    ← Equiv.sum_comp (contrEquiv1 dot_S2048x576_S576x128_S2048x128_1_0_0_1_n_n 576 rfl rfl).symm]
  refine Finset.sum_congr rfl fun k _ => ?_
  have hk := contrEquiv1_symm_val dot_S2048x576_S576x128_S2048x128_1_0_0_1_n_n 576 rfl rfl k
  have el : dot_S2048x576_S576x128_S2048x128_1_0_0_1_n_n.lhsIdx (ix2 r d)
      ((contrEquiv1 dot_S2048x576_S576x128_S2048x128_1_0_0_1_n_n 576 rfl rfl).symm k) = ix2 r k := funext fun a => Fin.ext (by
    match a with
    | ⟨0, _⟩ => exact lhs_onehot_0 _ _
    | ⟨1, _⟩ => exact (lhs_onehot_1 _ _).trans hk)
  have er : dot_S2048x576_S576x128_S2048x128_1_0_0_1_n_n.rhsIdx (ix2 r d)
      ((contrEquiv1 dot_S2048x576_S576x128_S2048x128_1_0_0_1_n_n 576 rfl rfl).symm k) = ix2 k d := funext fun a => Fin.ext (by
    match a with
    | ⟨0, _⟩ => exact (rhs_table_0 _ _).trans hk
    | ⟨1, _⟩ => exact rhs_table_1 _ _)
  rw [el, er]

/-! ## The broadcasts -/

/-- A [2048, 1] column laid across `n` lanes reads, at (r, k), the column at r. -/
theorem column_at {α : Type} {n : Nat} (hn : n ≠ 1) (x : S2048x1.Idx → α) (h : S2048x1.Broadcasts ⟨2, ![2048, n]⟩) (r : Fin 2048) (k : Fin n) :
    broadcastTo ⟨2, ![2048, n]⟩ x h (ix2 r k) = x (ix2 r (0 : Fin 1)) :=
  broadcastTo_apply x h (ix2 r k) (ix2 r (0 : Fin 1)) (fun a => match a with
    | ⟨0, _⟩ => by show r.val = if (2048 : Nat) = 1 then 0 else r.val; rw [if_neg (by decide)]
    | ⟨1, _⟩ => by show 0 = if (1 : Nat) = 1 then 0 else k.val; rw [if_pos rfl])

/-- A [1, 128] row laid down 2048 sublanes reads, at (r, d), the row at d. -/
theorem row_at {α : Type} (x : S1x128.Idx → α) (h : S1x128.Broadcasts S2048x128) (r : Fin 2048) (d : Fin 128) :
    broadcastTo S2048x128 x h (ix2 r d) = x (ix2 (0 : Fin 1) d) :=
  broadcastTo_apply x h (ix2 r d) (ix2 (0 : Fin 1) d) (fun a => match a with
    | ⟨0, _⟩ => by show 0 = if (1 : Nat) = 1 then 0 else r.val; rw [if_pos rfl]
    | ⟨1, _⟩ => by show d.val = if (128 : Nat) = 1 then 0 else d.val; rw [if_neg (by decide)])

/-! ## The one-hot rows -/

/-- Entry (r, k) of the one-hot block: 1 where pitch[r] is class k, else 0 (narrowing to bf16 changes nothing). -/
theorem onehot_at (p : IVec S2048x1 32) (hb : S2048x1.Broadcasts S2048x576) (hi : S2048x576.Iotas .tc 32 [1]) (hw : 1 < 32)
    (hf : FTy.bits .bf16 < FTy.bits .f32) (r : Fin 2048) (k : Fin 576) :
    (truncf .bf16 (sitofp .f32 (extui 32 (cmpi .eq (broadcastTo S2048x576 p hb) (iota .tc S2048x576 32 [1] hi)) hw) : FVec Ideal S2048x576 .f32) hf
        : FVec Ideal S2048x576 .bf16) (ix2 r k)
      = if p (ix2 r (0 : Fin 1)) = BitVec.ofNat 32 k.val then (1 : EReal) else 0 := by
  show FloatOps.sitofp (F := Ideal) .f32
      ((IntOp.cmpi .eq (broadcastTo S2048x576 p hb (ix2 r k)) (iota .tc S2048x576 32 [1] hi (ix2 r k))).setWidth 32) = _
  rw [column_at (by decide) p hb r k, iota_single_apply]
  exact onehot_entry _ _

/-! ## The payload -/

/-- THE STORED VALUE at (r, d), for a pitch in range: the table at the pitch's row, plus gain · wgain, plus the bias. -/
theorem payload_at (v0 : Vec Ideal S2048x1 .i32) (v2 : Vec Ideal S2048x1 .f32) (v4 : Vec Ideal S576x128 .f32)
    (v14 : Vec Ideal S1x128 .f32) (v20 : Vec Ideal S1x128 .f32) (r : Fin 2048) (d : Fin 128)
    (hp : (v0 (ix2 r (0 : Fin 1))).toNat < 576) :
    k0_pay1 v0 v2 v4 v14 v20 (ix2 r d)
      = v4 (ix2 (row (v0 (ix2 r (0 : Fin 1)))) d) + v2 (ix2 r (0 : Fin 1)) * v14 (ix2 (0 : Fin 1) d) + v20 (ix2 (0 : Fin 1) d) := by
  unfold k0_pay1
  simp only [shapeCast_self]
  rw [addf_apply, addf_apply, mulf_apply, contraction_at, row_at, row_at, column_at (by decide)]
  congr 2
  rw [← onehot_sum (v0 (ix2 r (0 : Fin 1))) hp (fun k => v4 (ix2 k d))]
  refine Finset.sum_congr rfl fun k _ => ?_
  rw [onehot_at]
  rfl

end Cert.KernelIdeal.Body

end
-- ==== Proof.KernelArray.lean ====
/-
  The output array of the kernel's one region, after the run: one function of the arrays the region reads.

  Grid point t works on rows [2048·t, 2048·t + 2048) of the flattened [262144] token axis: it stages block t of the pitch
  and gain columns, the whole table, gain-weight row and bias row (the same at every point), and writes back block t of the
  [262144, 128] output. Each written block is the restriction of `tokens` below to those rows, and the 128 blocks tile
  the array, so the array ends holding `tokens` everywhere.
-/
import proofs.«426710_j23218593202910_3_alg».proof.Proof.Gen.KernelIdeal.Frame
import proofs.«426710_j23218593202910_3_alg».proof.Proof.Payload
import proofs.«426710_j23218593202910_3_alg».proof.Proof.Spec
import Idealize.ShloMosaic.Lib.ValueIdx
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)
open Cert.Embed

variable (m : (ℓ : Loc nD τ sig) → Buf (Elt Ideal) ℓ) (ρ : Dev nD → PrngReg)

theorem offsets_zero : (![0, 0] : Fin 2 → Nat) = fun _ => 0 := funext fun a => by fin_cases a <;> rfl

/-- The result per token: row `n` of the flattened output is the table row of token `n`'s pitch, plus its gain times the
    gain-weight row, plus the bias row. -/
def tokens (P : S262144x1.Idx → Elt Ideal .i32) (Gn : S262144x1.Idx → Elt Ideal .f32) (T : S576x128.Idx → Elt Ideal .f32)
    (wg : S1x128.Idx → Elt Ideal .f32) (bs : S1x128.Idx → Elt Ideal .f32) : S262144x128.Idx → Elt Ideal .f32 :=
  fun i => T (ix2 (row (P (ix2 (n0 := 262144) (i 0) (0 : Fin 1)))) (n1 := 128) (i 1))
    + Gn (ix2 (n0 := 262144) (i 0) (0 : Fin 1)) * wg (ix2 (0 : Fin 1) (n1 := 128) (i 1)) + bs (ix2 (0 : Fin 1) (n1 := 128) (i 1))

/-- The staged blocks at a grid point, at their literal types. -/
abbrev pitchBlk (c : Dev nD) (t : Fin cfg0.N) : Vec Ideal S2048x1 .i32 := iblk m c 0 t
abbrev gainBlk (c : Dev nD) (t : Fin cfg0.N) : Vec Ideal S2048x1 .f32 := iblk m c 1 t
abbrev tableBlk (c : Dev nD) (t : Fin cfg0.N) : Vec Ideal S576x128 .f32 := iblk m c 2 t
abbrev wgainBlk (c : Dev nD) (t : Fin cfg0.N) : Vec Ideal S1x128 .f32 := iblk m c 3 t
abbrev biasBlk (c : Dev nD) (t : Fin cfg0.N) : Vec Ideal S1x128 .f32 := iblk m c 4 t

/-- The arrays the region reads, as it finds them, at their literal types: the flattened pitch and gain columns, the table
    Wᵀ[:576], the gain-weight row and the bias row. -/
abbrev pitchArr (c : Dev nD) : S262144x1.Idx → Elt Ideal .i32 := V m c main_v0
abbrev gainArr (c : Dev nD) : S262144x1.Idx → Elt Ideal .f32 := V m c main_v1
abbrev tableArr (c : Dev nD) : S576x128.Idx → Elt Ideal .f32 := V m c main_v3
abbrev wgainArr (c : Dev nD) : S1x128.Idx → Elt Ideal .f32 := V m c main_v6
abbrev biasArr (c : Dev nD) : S1x128.Idx → Elt Ideal .f32 := V m c main_v7

/-- The index maps over the grid: the pitch and gain blocks move with the output block along the token axis; the table,
    the gain-weight row and the bias row stay at block (0, 0); the output's lane block index is 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 127 :=
  (by decide +kernel : ∀ t : Fin grid0.N, _)

/-- Every block of 2048 tokens is some point's. -/
theorem idx_onto : ∀ q : Fin 128, ∃ t : Fin cfg0.N, win0_5.index t = ![q.val, 0] :=
  (by decide +kernel : ∀ q : Fin 128, ∃ t : Fin grid0.N, win0_5.index t = ![q.val, 0])

/-- The stored value at any element of the block, for pitches in range (`Body.payload_at` at the element's coordinates). -/
theorem payload_idx (v0 : Vec Ideal S2048x1 .i32) (v2 : Vec Ideal S2048x1 .f32) (v4 : Vec Ideal S576x128 .f32)
    (v14 : Vec Ideal S1x128 .f32) (v20 : Vec Ideal S1x128 .f32) (j : S2048x128.Idx)
    (hp : (v0 (ix2 (n0 := 2048) (j 0) (0 : Fin 1))).toNat < 576) :
    k0_pay1 v0 v2 v4 v14 v20 j
      = v4 (ix2 (row (v0 (ix2 (n0 := 2048) (j 0) (0 : Fin 1)))) (n1 := 128) (j 1))
        + v2 (ix2 (n0 := 2048) (j 0) (0 : Fin 1)) * v14 (ix2 (0 : Fin 1) (n1 := 128) (j 1)) + v20 (ix2 (0 : Fin 1) (n1 := 128) (j 1)) := by
  obtain ⟨r, d, rfl⟩ : ∃ (r : Fin 2048) (d : Fin 128), j = ix2 r d := ⟨j 0, j 1, eq_ix2 j⟩
  exact Body.payload_at v0 v2 v4 v14 v20 r d hp

/-- WHAT POINT `t` WRITES BACK is block `t` of `tokens` of the arrays as the region finds them. -/
theorem flushed_eq (c : Dev nD) (t : Fin cfg0.N) (hP : ∀ i, (pitchArr m c i).toNat < 576) :
    (dats m 0 c).flushed 5 t = ((cfg0.win 5).blk t).view.read (Elt Ideal)
      (tokens (pitchArr m c) (gainArr m c) (tableArr m c) (wgainArr m c) (biasArr m c)) := by
  show (cfg0.win 5).cut (grid0.coords t) ((dats m 0 c).after 5 t) = _
  rw [after0_5]
  unfold out0_5
  rw [View.canon_unit_zero offsets_zero]
  simp only [View.ld_unit_zero (S := S2048x1) offsets_zero, View.ld_unit_zero (S := S576x128) offsets_zero,
    View.ld_unit_zero (S := S1x128) offsets_zero]
  obtain ⟨e00, e01, e10, e11, e20, e21, e30, e31, e40, e41, e51, -⟩ := idx_facts t
  funext j
  refine (payload_idx (pitchBlk m c t) (gainBlk m c t) (tableBlk m c t) (wgainBlk m c t) (biasBlk m c t) j (hP _)).trans ?_
  have h0 : ((cfg0.win 0).blk t).view.emb (ix2 (n0 := 2048) (j 0) (0 : Fin 1))
      = ix2 (n0 := 262144) ((((cfg0.win 5).blk t).view.emb j) 0) (0 : Fin 1) := by
    funext a; apply Fin.ext
    match a with
    | ⟨0, _⟩ => show win0_0.index t (0 : Fin 2) * 2048 + 1 * (j 0).val = win0_5.index t (0 : Fin 2) * 2048 + 1 * (j 0).val; omega
    | ⟨1, _⟩ => show win0_0.index t (1 : Fin 2) * 1 + 1 * 0 = 0; omega
  have h1 : ((cfg0.win 1).blk t).view.emb (ix2 (n0 := 2048) (j 0) (0 : Fin 1))
      = ix2 (n0 := 262144) ((((cfg0.win 5).blk t).view.emb j) 0) (0 : Fin 1) := by
    funext a; apply Fin.ext
    match a with
    | ⟨0, _⟩ => show win0_1.index t (0 : Fin 2) * 2048 + 1 * (j 0).val = win0_5.index t (0 : Fin 2) * 2048 + 1 * (j 0).val; omega
    | ⟨1, _⟩ => show win0_1.index t (1 : Fin 2) * 1 + 1 * 0 = 0; omega
  have h2 : ∀ k : Fin 576, ((cfg0.win 2).blk t).view.emb (ix2 k (n1 := 128) (j 1))
      = ix2 k (n1 := 128) ((((cfg0.win 5).blk t).view.emb j) 1) := by
    intro k; funext a; apply Fin.ext
    match a with
    | ⟨0, _⟩ => show win0_2.index t (0 : Fin 2) * 576 + 1 * k.val = k.val; omega
    | ⟨1, _⟩ => show win0_2.index t (1 : Fin 2) * 128 + 1 * (j 1).val = win0_5.index t (1 : Fin 2) * 128 + 1 * (j 1).val; omega
  have h3 : ((cfg0.win 3).blk t).view.emb (ix2 (0 : Fin 1) (n1 := 128) (j 1))
      = ix2 (0 : Fin 1) (n1 := 128) ((((cfg0.win 5).blk t).view.emb j) 1) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega
  have h4 : ((cfg0.win 4).blk t).view.emb (ix2 (0 : Fin 1) (n1 := 128) (j 1))
      = ix2 (0 : Fin 1) (n1 := 128) ((((cfg0.win 5).blk t).view.emb j) 1) := by
    funext a; apply Fin.ext
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  show tableArr m c (((cfg0.win 2).blk t).view.emb (ix2 (row (pitchArr m c (((cfg0.win 0).blk t).view.emb (ix2 (n0 := 2048) (j 0) (0 : Fin 1))))) (n1 := 128) (j 1)))
      + gainArr m c (((cfg0.win 1).blk t).view.emb (ix2 (n0 := 2048) (j 0) (0 : Fin 1)))
        * wgainArr m c (((cfg0.win 3).blk t).view.emb (ix2 (0 : Fin 1) (n1 := 128) (j 1)))
      + biasArr m c (((cfg0.win 4).blk t).view.emb (ix2 (0 : Fin 1) (n1 := 128) (j 1)))
    = tokens (pitchArr m c) (gainArr m c) (tableArr m c) (wgainArr m c) (biasArr m c) (((cfg0.win 5).blk t).view.emb j)
  rw [h0, h1, h2, h3, h4]
  rfl

/-- An index of the array is in point `t`'s block iff each coordinate is in the block's range on its axis. -/
theorem mem_blk (t : Fin cfg0.N) (i : S262144x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v8).slice (win0_5.rect t)).set ↔ _
  rw [View.set_slice_whole, Rect.mem_set_unit]
  exact Iff.rfl

/-- THE COVER: token `n`'s row is in the block of point `n / 2048`. -/
theorem cover (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  obtain ⟨t, ht⟩ := idx_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 128 ≤ (i 1).val ∧ (i 1).val < win0_5.index t (1 : Fin 2) * 128 + 128; omega

/-- THE ARRAY after the run: `tokens` of the arrays as the region finds them, for pitches in range. -/
theorem final (c : Dev nD) (hP : ∀ i, (pitchArr m c i).toNat < 576) :
    (dats m 0 c).arrAt 5 cfg0.N
      = tokens (pitchArr m c) (gainArr m c) (tableArr m c) (wgainArr m c) (biasArr m c) :=
  (dats m 0 c).arrAt_eq_of_cover 5 _ (fun t _ => flushed_eq m c t hP) cover

end Cert.KernelIdeal.KValue

end
-- ==== Proof.KernelRun.lean ====
/-
  The kernel program's run: its result array is `Embed.embed` of the arguments, when every pitch is a pitch class.

  Before the region @main flattens pitch and gain to [262144, 1] columns (token n = 4096·b + s), takes the table
  Wᵀ[:576] (a slice, then a transpose), the gain-weight row W[:, 576] as [1, 128], and the bias as [1, 128]. After the region
  it reshapes the [262144, 128] output back to [64, 4096, 128]. Read index by index, `tokens` of those arrays at row
  4096·b + s, lane d, is the pitch's column of W, plus gain · W[d, 576], plus bias[d].
-/
import proofs.«426710_j23218593202910_3_alg».proof.Proof.KernelArray
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Embed

variable (m : (ℓ : Loc nD τ sig) → Buf (Elt Ideal) ℓ) (ρ : Dev nD → PrngReg)

/-! ## The arrays the region finds, from the arguments -/

theorem pitchArr_eq (c : Dev nD) :
    pitchArr m c = shapeCast S262144x1 (m ((c : Thread nD τ).loc main_arg0)) shapeCasts_S64x4096_S262144x1 := by
  show StableHlo.after hostOps0 (fun b => m (c, b)) (Proc.devRef .tc main_v0) = _
  after_results <;> rfl

theorem gainArr_eq (c : Dev nD) :
    gainArr m c = shapeCast S262144x1 (m ((c : Thread nD τ).loc main_arg1)) shapeCasts_S64x4096_S262144x1 := by
  show StableHlo.after hostOps0 (fun b => m (c, b)) (Proc.devRef .tc main_v1) = _
  after_results <;> rfl

theorem tableArr_eq (c : Dev nD) :
    tableArr m c = transpose S576x128 [1, 0]
      (extractStridedSlice S128x576 ![0, 0] (m ((c : Thread nD τ).loc main_arg2)) slices_S128x577_S128x576_0_0)
      transposes_S128x576_S576x128_1_0 := by
  show StableHlo.after hostOps0 (fun b => m (c, b)) (Proc.devRef .tc main_v3) = _
  after_results <;> rfl

theorem wgainArr_eq (c : Dev nD) :
    wgainArr m c = shapeCast S1x128 (shapeCast S128
      (extractStridedSlice S128x1 ![0, 576] (m ((c : Thread nD τ).loc main_arg2)) slices_S128x577_S128x1_0_576)
      shapeCasts_S128x1_S128) shapeCasts_S128_S1x128 := by
  show StableHlo.after hostOps0 (fun b => m (c, b)) (Proc.devRef .tc main_v6) = _
  after_results <;> rfl

theorem biasArr_eq (c : Dev nD) :
    biasArr m c = shapeCast S1x128 (m ((c : Thread nD τ).loc main_arg3)) shapeCasts_S128_S1x128 := by
  show StableHlo.after hostOps0 (fun b => m (c, b)) (Proc.devRef .tc main_v7) = _
  after_results <;> rfl

/-! ## Each of them at an index -/

/-- Token 4096·b + s of the flattened pitch column is pitch[b, s]. -/
theorem pitch_at (c : Dev nD) (b : Fin 64) (s : Fin 4096) :
    pitchArr m c (ix2 (⟨b.val * 4096 + s.val, by omega⟩ : Fin 262144) (0 : Fin 1)) = m ((c : Thread nD τ).loc main_arg0) (ix2 b s) :=
  (congrFun (pitchArr_eq m c) _).trans (shapeCast_apply _ _ _ (ix2 b s) (by
    rewrite [Shape.rowMajor_val_two, Shape.rowMajor_val_two]
    show b.val * 4096 + s.val = (b.val * 4096 + s.val) * 1 + 0; omega))

/-- Token 4096·b + s of the flattened gain column is gain[b, s]. -/
theorem gain_at (c : Dev nD) (b : Fin 64) (s : Fin 4096) :
    gainArr m c (ix2 (⟨b.val * 4096 + s.val, by omega⟩ : Fin 262144) (0 : Fin 1)) = m ((c : Thread nD τ).loc main_arg1) (ix2 b s) :=
  (congrFun (gainArr_eq m c) _).trans (shapeCast_apply _ _ _ (ix2 b s) (by
    rewrite [Shape.rowMajor_val_two, Shape.rowMajor_val_two]
    show b.val * 4096 + s.val = (b.val * 4096 + s.val) * 1 + 0; omega))

/-- The table at (k, d) is W[d, k]. -/
theorem table_at (c : Dev nD) (k : Fin 576) (d : Fin 128) :
    tableArr m c (ix2 k d) = m ((c : Thread nD τ).loc main_arg2) (wIdx d k) :=
  (congrFun (tableArr_eq m c) _).trans ((transpose_apply [1, 0] _ transposes_S128x576_S576x128_1_0 (ix2 k d) (ix2 d k)
      (fun a => match a with
        | ⟨0, _⟩ => rfl
        | ⟨1, _⟩ => rfl)).trans
    (extractStridedSlice_apply ![0, 0] _ slices_S128x577_S128x576_0_0 (ix2 d k) (wIdx d k) (fun a => match a with
      | ⟨0, _⟩ => by show d.val = 0 + d.val; omega
      | ⟨1, _⟩ => by show k.val = 0 + k.val; omega)))

/-- The gain-weight row at lane d is W[d, 576]. -/
theorem wgain_at (c : Dev nD) (d : Fin 128) :
    wgainArr m c (ix2 (0 : Fin 1) d) = m ((c : Thread nD τ).loc main_arg2) (wGain d) :=
  (congrFun (wgainArr_eq m c) _).trans ((shapeCast_apply _ shapeCasts_S128_S1x128 (ix2 (0 : Fin 1) d) (ix1 d) (by
      rewrite [Shape.rowMajor_val_one, Shape.rowMajor_val_two]
      show d.val = 0 * 128 + d.val; omega)).trans
    ((shapeCast_apply _ shapeCasts_S128x1_S128 (ix1 d) (ix2 d (0 : Fin 1)) (by
      rewrite [Shape.rowMajor_val_two, Shape.rowMajor_val_one]
      show d.val * 1 + 0 = d.val; omega)).trans
    (extractStridedSlice_apply ![0, 576] _ slices_S128x577_S128x1_0_576 (ix2 d (0 : Fin 1)) (wGain d) (fun a => match a with
      | ⟨0, _⟩ => by show d.val = 0 + d.val; omega
      | ⟨1, _⟩ => by show 576 = 576 + 0; omega))))

/-- The bias row at lane d is bias[d]. -/
theorem bias_at (c : Dev nD) (d : Fin 128) :
    biasArr m c (ix2 (0 : Fin 1) d) = m ((c : Thread nD τ).loc main_arg3) (ix1 d) :=
  (congrFun (biasArr_eq m c) _).trans (shapeCast_apply _ shapeCasts_S128_S1x128 (ix2 (0 : Fin 1) d) (ix1 d) (by
    rewrite [Shape.rowMajor_val_one, Shape.rowMajor_val_two]
    show d.val = 0 * 128 + d.val; omega))

/-- Every flattened pitch is one of the argument's pitches, so the range carries over. -/
theorem pitchArr_lt (c : Dev nD) (hr : ∀ i, (m ((c : Thread nD τ).loc main_arg0) i).toNat < 576) (i : S262144x1.Idx) :
    (pitchArr m c i).toNat < 576 := by
  rw [pitchArr_eq]
  exact hr _

/-! ## The result of @main -/

/-- The line after the region reshapes the region's output array. -/
theorem tail_eq (c : Dev nD) :
    Pipeline.afterTail₀ cfgs (dats m) 0 (V0 m) [hostOps1] c main_v9
      = shapeCast S64x4096x128 ((dats m 0 c).arrAt 5 cfg0.N) shapeCasts_S262144x128_S64x4096x128 := by
  unfold Pipeline.afterTail₀
  show StableHlo.after hostOps1 _ (Proc.devRef .tc main_v9) = _
  after_results
  exact congrArg (fun x => shapeCast S64x4096x128 x shapeCasts_S262144x128_S64x4096x128)
    (Pipeline.withArrays_arr spec0 launch0.win.arr_inj c _ _ 5)

/-- THE KERNEL'S RESULT is `embed` of the arguments, for pitches in range. -/
theorem result_eq (c : Dev nD) (hr : ∀ i, (m ((c : Thread nD τ).loc main_arg0) i).toNat < 576) :
    Pipeline.afterTail₀ cfgs (dats m) 0 (V0 m) [hostOps1] c main_v9
      = embed (m ((c : Thread nD τ).loc main_arg0)) (m ((c : Thread nD τ).loc main_arg1))
          (m ((c : Thread nD τ).loc main_arg2)) (m ((c : Thread nD τ).loc main_arg3)) := by
  rw [tail_eq, final m c (pitchArr_lt m c hr)]
  funext i
  obtain ⟨b, s, d, rfl⟩ : ∃ (b : Fin 64) (s : Fin 4096) (d : Fin 128), i = ix3 b s d := ⟨i 0, i 1, i 2, eq_ix3 i⟩
  refine (shapeCast_apply _ shapeCasts_S262144x128_S64x4096x128 (ix3 b s d)
    (ix2 (⟨b.val * 4096 + s.val, by omega⟩ : Fin 262144) d) (by
      rewrite [Shape.rowMajor_val_two, Shape.rowMajor_val_three]
      show (b.val * 4096 + s.val) * 128 + d.val = (b.val * 4096 + s.val) * 128 + d.val; rfl)).trans ?_
  show tableArr m c (ix2 (row (pitchArr m c (ix2 (⟨b.val * 4096 + s.val, by omega⟩ : Fin 262144) (0 : Fin 1)))) d)
      + gainArr m c (ix2 (⟨b.val * 4096 + s.val, by omega⟩ : Fin 262144) (0 : Fin 1)) * wgainArr m c (ix2 (0 : Fin 1) d)
      + biasArr m c (ix2 (0 : Fin 1) d) = _
  rw [table_at, pitch_at, gain_at, wgain_at, bias_at]
  rfl

/-! ## The run -/

/-- Every weakly fair execution of the kernel program terminates, its result at `embed` of the arguments and the arguments
    unchanged — for pitches in range. -/
theorem run (hr : ∀ (c : Dev nD) i, (m ((c : Thread nD τ).loc main_arg0) i).toNat < 576) :
    θ_run defs (onTc (τ := τ) (main (F := Ideal))) ⟨m, fun _ => 0, ρ⟩ fun r => ∀ c : Dev nD,
      r.2.mem ((c.tc : Thread nD τ).loc main_v9)
          = embed (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (result_eq m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/- The proof of `Cert.Claim` (proofs.«426710_j23218593202910_3_alg».proof.Defs): a pitch embedding.

   Both programs compute, for pitch[b, s] one of the 576 pitch classes,

     out[b, s, d] = W[d, pitch[b, s]] + gain[b, s] · W[d, 576] + bias[d]            (`Embed.embed`, Proof/Spec.lean).

   The reference gathers row pitch[b, s] of the table Wᵀ[:576] (Proof/Reference.lean: its wrap of a negative index is never
   taken and the gather's clamp is the identity for a pitch in range). The kernel flattens the tokens, and at each of 128 grid
   points contracts the one-hot rows of 2048 tokens' pitches with the table on the matrix unit: on the extended reals
   Σₖ δ(p, k) · T[k, d] = T[p, d] with no finiteness needed, since 0 · x = 0 for every x (Proof/Spec.lean `onehot_sum`,
   Proof/Payload.lean); the 128 written blocks tile the output (Proof/KernelArray.lean), and the host lines around the region are
   reshapes, a slice and a transpose read index by index (Proof/KernelRun.lean).

   The precondition keeps every pitch in [0, 576) (Proof/PitchRange.lean): outside it the reference's gather indexes out of
   range (it clamps), while the one-hot row is all zero, so the two programs differ there. The float inputs' finiteness is
   not used. The frames are the generated ones; the ideal pass rewrote nothing, so `preserves` is `True`. -/
import proofs.«426710_j23218593202910_3_alg».proof.Defs
import proofs.«426710_j23218593202910_3_alg».proof.Proof.Gen.Kernel
import proofs.«426710_j23218593202910_3_alg».proof.Proof.Gen.Kernel.Skeleton
import proofs.«426710_j23218593202910_3_alg».proof.Proof.Gen.Kernel.Launch
import proofs.«426710_j23218593202910_3_alg».proof.Proof.Gen.Kernel.Points
import proofs.«426710_j23218593202910_3_alg».proof.Proof.Gen.Kernel.Frame
import proofs.«426710_j23218593202910_3_alg».proof.Proof.Gen.KernelIdeal
import proofs.«426710_j23218593202910_3_alg».proof.Proof.Gen.KernelIdeal.Skeleton
import proofs.«426710_j23218593202910_3_alg».proof.Proof.Gen.KernelIdeal.Launch
import proofs.«426710_j23218593202910_3_alg».proof.Proof.Gen.KernelIdeal.Points
import proofs.«426710_j23218593202910_3_alg».proof.Proof.Gen.KernelIdeal.Frame
import proofs.«426710_j23218593202910_3_alg».proof.Proof.Gen.ReferenceIdeal
import proofs.«426710_j23218593202910_3_alg».proof.Proof.Gen.ReferenceIdeal.Run
import proofs.«426710_j23218593202910_3_alg».proof.Proof.Gen.ReferenceIdeal.Read
import proofs.«426710_j23218593202910_3_alg».proof.Proof.Gen.Pre_finite_inputs
import proofs.«426710_j23218593202910_3_alg».proof.Proof.Spec
import proofs.«426710_j23218593202910_3_alg».proof.Proof.PitchRange
import proofs.«426710_j23218593202910_3_alg».proof.Proof.Reference
import proofs.«426710_j23218593202910_3_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, both end at `embed` of the arguments: the
    precondition puts every pitch in range, where each program is `embed`. -/
theorem algebraic : Cert.algebraic_KernelIdeal_ReferenceIdeal := by
  intro m ρ m' ρ' hpre hagree
  have hr : ∀ (c : Dev Cert.KernelIdeal.nD) i,
      (m ((c : Thread Cert.KernelIdeal.nD Cert.KernelIdeal.τ).loc Cert.KernelIdeal.main_arg0) i).toNat < 576 :=
    fun c i => Cert.PitchRange.pitch_lt _ _ _ _ (hpre c) i
  refine ⟨_, Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  exact Cert.ReferenceIdeal.RefValue.result_eq _ _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
